-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S16384x512 : Shape := ⟨2, ![16384, 512]⟩
abbrev S512 : Shape := ⟨1, ![512]⟩
abbrev S512x1 : Shape := ⟨2, ![512, 1]⟩
abbrev S128 : Shape := ⟨1, ![128]⟩
abbrev S1x128 : Shape := ⟨2, ![1, 128]⟩
abbrev S_ : Shape := ⟨0, ![]⟩
abbrev S512x128 : Shape := ⟨2, ![512, 128]⟩
abbrev S16384x128 : Shape := ⟨2, ![16384, 128]⟩
abbrev S2048x512 : Shape := ⟨2, ![2048, 512]⟩
abbrev S4096x128 : Shape := ⟨2, ![4096, 128]⟩
abbrev S2048x128 : Shape := ⟨2, ![2048, 128]⟩

abbrev nBuf : Space → Nat
  | .hbm => 33
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S512, .i32⟩
  | .hbm, ⟨2, _⟩ => ⟨S512x1, .i32⟩
  | .hbm, ⟨3, _⟩ => ⟨S128, .i32⟩
  | .hbm, ⟨4, _⟩ => ⟨S1x128, .i32⟩
  | .hbm, ⟨5, _⟩ => ⟨S_, .i32⟩
  | .hbm, ⟨6, _⟩ => ⟨S_, .i32⟩
  | .hbm, ⟨7, _⟩ => ⟨S512x1, .i32⟩
  | .hbm, ⟨8, _⟩ => ⟨S512x1, .i32⟩
  | .hbm, ⟨9, _⟩ => ⟨S512x1, .i32⟩
  | .hbm, ⟨10, _⟩ => ⟨S_, .i32⟩
  | .hbm, ⟨11, _⟩ => ⟨S512x1, .i32⟩
  | .hbm, ⟨12, _⟩ => ⟨S512x1, .i1⟩
  | .hbm, ⟨13, _⟩ => ⟨S512x1, .i32⟩
  | .hbm, ⟨14, _⟩ => ⟨S512x1, .i32⟩
  | .hbm, ⟨15, _⟩ => ⟨S_, .i32⟩
  | .hbm, ⟨16, _⟩ => ⟨S512x1, .i32⟩
  | .hbm, ⟨17, _⟩ => ⟨S512x1, .i1⟩
  | .hbm, ⟨18, _⟩ => ⟨S512x1, .i1⟩
  | .hbm, ⟨19, _⟩ => ⟨S_, .i32⟩
  | .hbm, ⟨20, _⟩ => ⟨S512x1, .i32⟩
  | .hbm, ⟨21, _⟩ => ⟨S512x1, .i32⟩
  | .hbm, ⟨22, _⟩ => ⟨S512x1, .i32⟩
  | .hbm, ⟨23, _⟩ => ⟨S512x128, .i32⟩
  | .hbm, ⟨24, _⟩ => ⟨S512x128, .i32⟩
  | .hbm, ⟨25, _⟩ => ⟨S512x128, .i1⟩
  | .hbm, ⟨26, _⟩ => ⟨S_, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S512x128, .bf16⟩
  | .hbm, ⟨32, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x128, .bf16⟩
  | .local _ .vmem, ⟨5, _⟩ => ⟨S4096x128, .f32⟩
  | .local _ .vmem, ⟨6, _⟩ => ⟨S4096x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S512_S512x1_0 : S512.BroadcastsInDim S512x1 (![0] : Fin 1 → Fin S512x1.rank)
  bcast_S128_S1x128_1 : S128.BroadcastsInDim S1x128 (![1] : Fin 1 → Fin S1x128.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x512_S2048x512_0_0 : ∀ a, (![0, 0] : Fin 2 → Nat) a + S2048x512.size a ≤ S2048x512.size a
  h_S2048x512 : 0 < S2048x512.numel
  inb_S4096x128_S2048x128_0_0 : ∀ a, (![0, 0] : Fin 2 → Nat) a + S2048x128.size a ≤ S4096x128.size a
  h_S2048x128 : 0 < S2048x128.numel
  inb_S4096x128_S2048x128_2048_0 : ∀ a, (![2048, 0] : Fin 2 → Nat) a + S2048x128.size a ≤ S4096x128.size a
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S16384x128.size a
  hwx0_3 : ∀ i : grid0.Coords, EltTy.bits .f32 = 32 ∨ (Rect.block (s := S16384x128) S4096x128.size (cc0_transform_3 i) (hinb0_3 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S512 : Shape := ⟨1, ![512]⟩
abbrev S512x1 : Shape := ⟨2, ![512, 1]⟩
abbrev S128 : Shape := ⟨1, ![128]⟩
abbrev S1x128 : Shape := ⟨2, ![1, 128]⟩
abbrev S_ : Shape := ⟨0, ![]⟩
abbrev S512x128 : Shape := ⟨2, ![512, 128]⟩
abbrev S16384x128 : Shape := ⟨2, ![16384, 128]⟩
abbrev S2048x512 : Shape := ⟨2, ![2048, 512]⟩
abbrev S2048x128 : Shape := ⟨2, ![2048, 128]⟩

abbrev nBuf : Space → Nat
  | .hbm => 33
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512, .i32⟩
  | .hbm, ⟨2, _⟩ => ⟨S512x1, .i32⟩
  | .hbm, ⟨3, _⟩ => ⟨S128, .i32⟩
  | .hbm, ⟨4, _⟩ => ⟨S1x128, .i32⟩
  | .hbm, ⟨5, _⟩ => ⟨S_, .i32⟩
  | .hbm, ⟨6, _⟩ => ⟨S_, .i32⟩
  | .hbm, ⟨7, _⟩ => ⟨S512x1, .i32⟩
  | .hbm, ⟨8, _⟩ => ⟨S512x1, .i32⟩
  | .hbm, ⟨9, _⟩ => ⟨S512x1, .i32⟩
  | .hbm, ⟨10, _⟩ => ⟨S_, .i32⟩
  | .hbm, ⟨11, _⟩ => ⟨S512x1, .i32⟩
  | .hbm, ⟨12, _⟩ => ⟨S512x1, .i1⟩
  | .hbm, ⟨13, _⟩ => ⟨S512x1, .i32⟩
  | .hbm, ⟨14, _⟩ => ⟨S512x1, .i32⟩
  | .hbm, ⟨15, _⟩ => ⟨S_, .i32⟩
  | .hbm, ⟨16, _⟩ => ⟨S512x1, .i32⟩
  | .hbm, ⟨17, _⟩ => ⟨S512x1, .i1⟩
  | .hbm, ⟨18, _⟩ => ⟨S512x1, .i1⟩
  | .hbm, ⟨19, _⟩ => ⟨S_, .i32⟩
  | .hbm, ⟨20, _⟩ => ⟨S512x1, .i32⟩
  | .hbm, ⟨21, _⟩ => ⟨S512x1, .i32⟩
  | .hbm, ⟨22, _⟩ => ⟨S512x1, .i32⟩
  | .hbm, ⟨23, _⟩ => ⟨S512x128, .i32⟩
  | .hbm, ⟨24, _⟩ => ⟨S512x128, .i32⟩
  | .hbm, ⟨25, _⟩ => ⟨S512x128, .i1⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x128, .i1⟩
  | .hbm, ⟨30, _⟩ => ⟨S512x128, .i1⟩
  | .hbm, ⟨31, _⟩ => ⟨S512x128, .f32⟩
  | .hbm, ⟨32, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S2048x128, .f32⟩
  | .local _ .vmem, ⟨4, _⟩ => ⟨S2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S512_S512x1_0 : S512.BroadcastsInDim S512x1 (![0] : Fin 1 → Fin S512x1.rank)
  bcast_S128_S1x128_1 : S128.BroadcastsInDim S1x128 (![1] : Fin 1 → Fin S1x128.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  inb_S2048x512_S2048x512_0_0 : ∀ a, (![0, 0] : Fin 2 → Nat) a + S2048x512.size a ≤ S2048x512.size a
  h_S2048x512 : 0 < S2048x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibSharedFrame.lean ====
/-
  The frame run of a program with one kernel region whose windows may stage ONE array through several windows.

  When two input windows read the same array, the array's buffer is held once, whole, when the region is entered,
  and each window wants a share of it. The run below is the ordinary frame run with that one difference: in place
  of "every window's array at the full share", the caller says how the buffers behind the arrays, each whole at its
  entry contents, are dealt among the windows (`hsplit`). What the body may use beside its staging buffers is the
  core's other scoped buffers, at some contents each, and nothing else.

    * `pointsTo_halves`: a whole buffer at the full share is the same buffer at the left half and at the right half;
    * `θ_run_frame_shared`: from the body obligation, the program's shape up to the region and the dealing of the
      arrays, every weakly fair execution ends with each window's array at what the write-backs leave in it and every
      other unscoped buffer as the region found it.
-/
import Idealize.ShloMosaic.Lib.Pipeline.Frame

noncomputable section

namespace Cert.Lib.SharedFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

/-- A buffer held whole at the full share is the buffer held at the two halves of the full share. -/
theorem pointsTo_halves {Ix : Type} [DecidableEq Ix] {Name : Type} [DecidableEq Name] {U : Type} [URA U] {Lvl : Type}
    (ℓ : Loc nD τ sig) (f : Buf Val ℓ) :
    ((ℓ ↦{fullShare} f : sProp (MT nD τ sig Ix Val Name U Lvl)))
      ⊢ iprop((ℓ ↦{fullShare.left} f) ∗ (ℓ ↦{fullShare.right} f)) :=
  (pointsTo_share (PosShare.mem_left_op_right fullShare)).1

section Run

variable {Λ₀ : Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- THE FRAME RUN when windows may share an array. The proof data's invariant is the core's scoped buffers that are
    no staging buffer (`hΦ`); the arrays' buffers, whole at the entry contents, make the data's arrays at entry
    (`hsplit`). Every final state has each window's array at the data's `arrAt … N` and every other unscoped buffer at its
    entry contents. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Run

end Cert.Lib.SharedFrame

end
-- ==== Proof.KernelFrame.lean ====
/-
  The frame of the pooling kernel's program, at any float instance.

  The program computes a [512, 128] weight matrix on the host and launches one kernel region over four grid points.
  The region stages the argument array TWICE: window 0 reads rows [4096 t, 4096 t + 2048) of it and window 1 rows
  [4096 t + 2048, 4096 t + 4096), window 2 the weights (once), and window 3 is the result's block of 4096 rows. The
  body loads the three input blocks and stores two matrix products into the two halves of the result's staging buffer.

  Because two windows read one array, the array's buffer is dealt to them by halves of its share (`arrays_of_arrBufs`)
  and the run is the shared-array frame run. Everything else is the ordinary frame: the program up to the region
  (`hmain`), each window's block at a point (`iblk`), what the body leaves in the result's buffer (`out0_3`: the canon of
  its two stores), the body's triple (`sound_kernel`), the proof data (`dats`), the run (`run_main`) and the frame claim's
  post (`frame`).
-/
import proofs.«147039_g2000704219197385_pallasbulk_233_9_alg».proof.Proof.Gen.Kernel.Launch
import proofs.«147039_g2000704219197385_pallasbulk_233_9_alg».proof.Proof.Gen.Kernel.Skeleton
import proofs.«147039_g2000704219197385_pallasbulk_233_9_alg».proof.Proof.Gen.Kernel.Points
import proofs.«147039_g2000704219197385_pallasbulk_233_9_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A whole block of 2048 rows of the argument; the whole weight matrix; the low and the high half of the result's block. -/
abbrev rX : Rect S2048x512 := Rect.unit (s := S2048x512) ![0, 0] S2048x512.size inb_S2048x512_S2048x512_0_0
abbrev rP : Rect S512x128 := Rect.unit (s := S512x128) ![0, 0] S512x128.size inb_S512x128_S512x128_0_0
abbrev rLo : Rect S4096x128 := Rect.unit (s := S4096x128) ![0, 0] S2048x128.size inb_S4096x128_S2048x128_0_0
abbrev rHi : Rect S4096x128 := Rect.unit (s := S4096x128) ![2048, 0] S2048x128.size inb_S4096x128_S2048x128_2048_0

/-- What the body leaves in the result's staging buffer, from the three input blocks: its two stores, the later first. -/
def out0_3 (x0 x1 : Vec F S2048x512 .f32) (x2 : Vec F S512x128 .bf16) : Vec F S4096x128 .f32 :=
  View.canon [⟨rHi, k0_pay3 (View.ld x2 rP) (View.ld x1 rX)⟩, ⟨rLo, k0_pay2 (View.ld x2 rP) (View.ld x0 rX)⟩]

/-- The two stores tile the buffer, so they cover it. -/
theorem cover0_3 (p0 p1 : Vec F S2048x128 .f32) (y : S4096x128.Idx) :
    ∃ pc ∈ ([⟨rHi, p1⟩, ⟨rLo, p0⟩] : List (View.Piece (Elt F) S4096x128 .f32)), y ∈ pc.1.set :=
  View.cover_of_tiled [⟨rHi, p1⟩, ⟨rLo, p0⟩] S2048x128.size (by rfl) y

/-! ## The body's triple -/

set_option maxHeartbeats 1000000 in
/-- The body, on whole staging memrefs holding the input blocks `x0`, `x1`, `x2` and anything in the result's, runs to the
    continuation with the inputs as they were and the result's buffer at `out0_3` of them. -/
theorem sound_kernel (c : Dev nD) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S4096x128 .f32) (harg4 : arg4.IsWhole)
    (x0 x1 : Vec F S2048x512 .f32) (x2 : Vec F S512x128 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__pool_kernel i arg1 harg1 arg2 harg2 arg3 harg3 arg4 harg4) K := by
  simp only [cc0__pool_kernel_eq_skeleton]; unfold cc0__pool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The proof data -/

/-- The proof data on core `c`: the arrays as the region finds them; after the body at point `t` each input's buffer
    at its block and the result's at `out0_3` of the three blocks; the invariant the core's other scoped buffers; the
    argument array held by halves, one half for each of the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The argument array dealt to the two windows that read it -/

/-- The three buffers behind the four windows' arrays, each whole at its entry contents, are the proof data's arrays
    at entry: the argument array's buffer split into the two halves of its share, one for each window that reads it;
    the weights and the result whole. -/
theorem arrays_of_arrBufs (c : Dev nD) :
    (Pipeline.arrBufs spec0 c (V m c) : sProp 𝕄) ⊢ (dats m 0 c).arrays ((dats m 0 c).arrAt · 0) := by
  classical
  have himg : Finset.univ.image (Pipeline.arrRef spec0) = ({main_arg0, main_v9, main_v10} : Finset (Ref sig .tc)) := by decide
  have e0 : ((cfg0.win 0).arr.view.loc (c : Thread nD τ) ↦[(cfg0.win 0).arr.view.set]{(dats m 0 c).share 0} (dats m 0 c).arrAt 0 0 : sProp 𝕄)
      = (((c : Thread nD τ).loc main_arg0) ↦{fullShare.left} V m c main_arg0) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = (((c : Thread nD τ).loc main_arg0) ↦{fullShare.right} V m c main_arg0) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = (((c : Thread nD τ).loc main_v9) ↦{fullShare} V m c main_v9) := by
    rw [(arr_whole0 2).set_eq_univ]; rfl
  have e3 : ((cfg0.win 3).arr.view.loc (c : Thread nD τ) ↦[(cfg0.win 3).arr.view.set]{(dats m 0 c).share 3} (dats m 0 c).arrAt 3 0 : sProp 𝕄)
      = (((c : Thread nD τ).loc main_v10) ↦{fullShare} V m c main_v10) := by
    rw [(arr_whole0 3).set_eq_univ]; rfl
  unfold Pipeline.arrBufs Dat.arrays
  rw [himg, bigSep_insert (by decide), bigSep_insert (by decide), bigSep_singleton, bigSep_W0, e0, e1, e2, e3]
  show iprop((((c : Thread nD τ).loc main_arg0) ↦{fullShare} V m c main_arg0) ∗ (((c : Thread nD τ).loc main_v9) ↦{fullShare} V m c main_v9)
        ∗ (((c : Thread nD τ).loc main_v10) ↦{fullShare} V m c main_v10))
      ⊢ (iprop((((c : Thread nD τ).loc main_arg0) ↦{fullShare.left} V m c main_arg0) ∗ (((c : Thread nD τ).loc main_arg0) ↦{fullShare.right} V m c main_arg0)
        ∗ (((c : Thread nD τ).loc main_v9) ↦{fullShare} V m c main_v9) ∗ (((c : Thread nD τ).loc main_v10) ↦{fullShare} V m c main_v10)) : sProp 𝕄)
  iintro ⟨H0, H9, H10⟩
  ihave H := (Cert.Lib.SharedFrame.pointsTo_halves ((c : Thread nD τ).loc main_arg0) (V m c main_arg0)) $$ H0
  icases H with ⟨Hl, Hr⟩
  isplitl [Hl]; · iexact Hl
  isplitl [Hr]; · iexact Hr
  isplitl [H9]; · iexact H9
  iexact H10

/-! ## The run and the frame -/

set_option backward.isDefEq.respectTransparency.types false in
/-- Every weakly fair execution of the program terminates, and every final state has each window's array at what the
    write-backs leave in it and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_of_arrBufs m)
    (hΦ := fun _ _ => rfl)

/-- THE FRAME: the argument array ends as launched. It is window 0's array, an input, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c))))
    (run_main m ρ)

end Cert.Kernel.Hand

end
-- ==== Proof.KernelIdealFrame.lean ====
/-
  The frame of the pooling kernel's program, at any float instance.

  The program computes a [512, 128] weight matrix on the host and launches one kernel region over four grid points.
  The region stages the argument array TWICE: window 0 reads rows [4096 t, 4096 t + 2048) of it and window 1 rows
  [4096 t + 2048, 4096 t + 4096), window 2 the weights (once), and window 3 is the result's block of 4096 rows. The
  body loads the three input blocks and stores two matrix products into the two halves of the result's staging buffer.

  Because two windows read one array, the array's buffer is dealt to them by halves of its share (`arrays_of_arrBufs`)
  and the run is the shared-array frame run. Everything else is the ordinary frame: the program up to the region
  (`hmain`), each window's block at a point (`iblk`), what the body leaves in the result's buffer (`out0_3`: the canon of
  its two stores), the body's triple (`sound_kernel`), the proof data (`dats`), the run (`run_main`) and the frame claim's
  post (`frame`).
-/
import proofs.«147039_g2000704219197385_pallasbulk_233_9_alg».proof.Proof.Gen.KernelIdeal.Launch
import proofs.«147039_g2000704219197385_pallasbulk_233_9_alg».proof.Proof.Gen.KernelIdeal.Skeleton
import proofs.«147039_g2000704219197385_pallasbulk_233_9_alg».proof.Proof.Gen.KernelIdeal.Points
import proofs.«147039_g2000704219197385_pallasbulk_233_9_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- A whole block of 2048 rows of the argument; the whole weight matrix; the low and the high half of the result's block. -/
abbrev rX : Rect S2048x512 := Rect.unit (s := S2048x512) ![0, 0] S2048x512.size inb_S2048x512_S2048x512_0_0
abbrev rP : Rect S512x128 := Rect.unit (s := S512x128) ![0, 0] S512x128.size inb_S512x128_S512x128_0_0
abbrev rLo : Rect S4096x128 := Rect.unit (s := S4096x128) ![0, 0] S2048x128.size inb_S4096x128_S2048x128_0_0
abbrev rHi : Rect S4096x128 := Rect.unit (s := S4096x128) ![2048, 0] S2048x128.size inb_S4096x128_S2048x128_2048_0

/-- What the body leaves in the result's staging buffer, from the three input blocks: its two stores, the later first. -/
def out0_3 (x0 x1 : Vec F S2048x512 .f32) (x2 : Vec F S512x128 .bf16) : Vec F S4096x128 .f32 :=
  View.canon [⟨rHi, k0_pay3 (View.ld x2 rP) (View.ld x1 rX)⟩, ⟨rLo, k0_pay2 (View.ld x2 rP) (View.ld x0 rX)⟩]

/-- The two stores tile the buffer, so they cover it. -/
theorem cover0_3 (p0 p1 : Vec F S2048x128 .f32) (y : S4096x128.Idx) :
    ∃ pc ∈ ([⟨rHi, p1⟩, ⟨rLo, p0⟩] : List (View.Piece (Elt F) S4096x128 .f32)), y ∈ pc.1.set :=
  View.cover_of_tiled [⟨rHi, p1⟩, ⟨rLo, p0⟩] S2048x128.size (by rfl) y

/-! ## The body's triple -/

set_option maxHeartbeats 1000000 in
/-- The body, on whole staging memrefs holding the input blocks `x0`, `x1`, `x2` and anything in the result's, runs to the
    continuation with the inputs as they were and the result's buffer at `out0_3` of them. -/
theorem sound_kernel (c : Dev nD) (E : Set ℕ) (i : grid0.Coords) (arg1 : Memref sig .tc .vmem S2048x512 .f32) (harg1 : arg1.IsWhole) (arg2 : Memref sig .tc .vmem S2048x512 .f32) (harg2 : arg2.IsWhole) (arg3 : Memref sig .tc .vmem S512x128 .bf16) (harg3 : arg3.IsWhole) (arg4 : Memref sig .tc .vmem S4096x128 .f32) (harg4 : arg4.IsWhole)
    (x0 x1 : Vec F S2048x512 .f32) (x2 : Vec F S512x128 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__pool_kernel i arg1 harg1 arg2 harg2 arg3 harg3 arg4 harg4) K := by
  simp only [cc0__pool_kernel_eq_skeleton]; unfold cc0__pool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The proof data -/

/-- The proof data on core `c`: the arrays as the region finds them; after the body at point `t` each input's buffer
    at its block and the result's at `out0_3` of the three blocks; the invariant the core's other scoped buffers; the
    argument array held by halves, one half for each of the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The argument array dealt to the two windows that read it -/

/-- The three buffers behind the four windows' arrays, each whole at its entry contents, are the proof data's arrays
    at entry: the argument array's buffer split into the two halves of its share, one for each window that reads it;
    the weights and the result whole. -/
theorem arrays_of_arrBufs (c : Dev nD) :
    (Pipeline.arrBufs spec0 c (V m c) : sProp 𝕄) ⊢ (dats m 0 c).arrays ((dats m 0 c).arrAt · 0) := by
  classical
  have himg : Finset.univ.image (Pipeline.arrRef spec0) = ({main_arg0, main_v9, main_v10} : Finset (Ref sig .tc)) := by decide
  have e0 : ((cfg0.win 0).arr.view.loc (c : Thread nD τ) ↦[(cfg0.win 0).arr.view.set]{(dats m 0 c).share 0} (dats m 0 c).arrAt 0 0 : sProp 𝕄)
      = (((c : Thread nD τ).loc main_arg0) ↦{fullShare.left} V m c main_arg0) := by
    rw [(arr_whole0 0).set_eq_univ]; rfl
  have e1 : ((cfg0.win 1).arr.view.loc (c : Thread nD τ) ↦[(cfg0.win 1).arr.view.set]{(dats m 0 c).share 1} (dats m 0 c).arrAt 1 0 : sProp 𝕄)
      = (((c : Thread nD τ).loc main_arg0) ↦{fullShare.right} V m c main_arg0) := by
    rw [(arr_whole0 1).set_eq_univ]; rfl
  have e2 : ((cfg0.win 2).arr.view.loc (c : Thread nD τ) ↦[(cfg0.win 2).arr.view.set]{(dats m 0 c).share 2} (dats m 0 c).arrAt 2 0 : sProp 𝕄)
      = (((c : Thread nD τ).loc main_v9) ↦{fullShare} V m c main_v9) := by
    rw [(arr_whole0 2).set_eq_univ]; rfl
  have e3 : ((cfg0.win 3).arr.view.loc (c : Thread nD τ) ↦[(cfg0.win 3).arr.view.set]{(dats m 0 c).share 3} (dats m 0 c).arrAt 3 0 : sProp 𝕄)
      = (((c : Thread nD τ).loc main_v10) ↦{fullShare} V m c main_v10) := by
    rw [(arr_whole0 3).set_eq_univ]; rfl
  unfold Pipeline.arrBufs Dat.arrays
  rw [himg, bigSep_insert (by decide), bigSep_insert (by decide), bigSep_singleton, bigSep_W0, e0, e1, e2, e3]
  show iprop((((c : Thread nD τ).loc main_arg0) ↦{fullShare} V m c main_arg0) ∗ (((c : Thread nD τ).loc main_v9) ↦{fullShare} V m c main_v9)
        ∗ (((c : Thread nD τ).loc main_v10) ↦{fullShare} V m c main_v10))
      ⊢ (iprop((((c : Thread nD τ).loc main_arg0) ↦{fullShare.left} V m c main_arg0) ∗ (((c : Thread nD τ).loc main_arg0) ↦{fullShare.right} V m c main_arg0)
        ∗ (((c : Thread nD τ).loc main_v9) ↦{fullShare} V m c main_v9) ∗ (((c : Thread nD τ).loc main_v10) ↦{fullShare} V m c main_v10)) : sProp 𝕄)
  iintro ⟨H0, H9, H10⟩
  ihave H := (Cert.Lib.SharedFrame.pointsTo_halves ((c : Thread nD τ).loc main_arg0) (V m c main_arg0)) $$ H0
  icases H with ⟨Hl, Hr⟩
  isplitl [Hl]; · iexact Hl
  isplitl [Hr]; · iexact Hr
  isplitl [H9]; · iexact H9
  iexact H10

/-! ## The run and the frame -/

set_option backward.isDefEq.respectTransparency.types false in
/-- Every weakly fair execution of the program terminates, and every final state has each window's array at what the
    write-backs leave in it and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_of_arrBufs m)
    (hΦ := fun _ _ => rfl)

/-- THE FRAME: the argument array ends as launched. It is window 0's array, an input, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c))))
    (run_main m ρ)

end Cert.KernelIdeal.Hand

end
-- ==== Proof.PoolSpec.lean ====
/-
  Grouped pooling of the 512 columns of a [16384, 512] array into 128 columns, as one function of the array.

  Both programs multiply each row of `x` by a [512, 128] weight matrix built from one membership mask `D`
  (`D (k, c) = 1` when column `k` belongs to group `c`): the kernel's weights are one half on the mask and the zero
  word off it; the reference's are the mask's bit read as a number, and it halves the product afterwards. For a row
  of real numbers the two agree, whatever the mask: one half times a sum of reals is the sum of the halves.
-/
import Idealize.ShloMosaic.PureOps.Ideal.Laws
import Idealize.ShloMosaic.Lib.ValueIdx

noncomputable section

namespace Cert.Pool

open Idealize.ShloMosaic Idealize.ShloMosaic.ValueIdx

/-- The input's shape, the weights' and the result's. -/
abbrev SX : Shape := ⟨2, ![16384, 512]⟩
abbrev SW : Shape := ⟨2, ![512, 128]⟩
abbrev SO : Shape := ⟨2, ![16384, 128]⟩

/-- The scale, as both programs spell it: the binary32 word of one half. -/
def half : EReal := Ideal.ofBits .f32 0x3F000000#32

/-- Row `i 0` of `x` against column `i 1` of the weights `w`. -/
def rowDot (x : SX.Idx → EReal) (w : SW.Idx → EReal) (i : SO.Idx) : EReal :=
  ∑ k : Fin 512, x (ix2 (i 0) k) * w (ix2 k (i 1))

/-- The kernel's weights: one half where the mask is set, the zero word elsewhere. -/
def wScaled (D : SW.Idx → BitVec 1) : SW.Idx → EReal :=
  fun j => if D j = 1 then half else Ideal.ofBits .f32 0x00000000#32

/-- The reference's weights: the mask's bit as a number. -/
def wPlain (D : SW.Idx → BitVec 1) : SW.Idx → EReal :=
  fun j => (((D j).toNat : ℝ) : EReal)

/-- What the kernel computes: each row against the scaled weights. -/
def kernelOut (x : SX.Idx → EReal) (D : SW.Idx → BitVec 1) : SO.Idx → EReal :=
  fun i => rowDot x (wScaled D) i

/-- What the reference computes: each row against the plain weights, then halved. -/
def refOut (x : SX.Idx → EReal) (D : SW.Idx → BitVec 1) : SO.Idx → EReal :=
  fun i => rowDot x (wPlain D) i * half

/-- The scale is the real number one half: the word has sign 0, exponent field 126 and a zero fraction, so it
    denotes `2 ^ 23 * 2 ^ (126 - 127 - 23) = 1 / 2`. -/
theorem half_eq : half = (((1 / 2 : ℝ)) : EReal) := by
  show Ideal.ofBits .f32 0x3F000000#32 = _
  simp [Ideal.ofBits, Ideal.ieee, -EReal.coe_mul]
  norm_num

/-- A finite sum of real numbers, each read as an extended real, is the real sum read as an extended real
    (by induction on the index set, one `EReal.coe_add` per term). -/
private theorem sum_coe_eq_coe_sum {ι : Type} (s : Finset ι) (g : ι → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- A one-bit word is the zero word or the one word. -/
private theorem bit_eq_zero_or_one : ∀ b : BitVec 1, b = 0#1 ∨ b = 1#1 := by decide

/-- The kernel's weight at a mask bit `b` is the real number `b * (1 / 2)`: one half at the one word, zero at the
    zero word. -/
private theorem scaled_weight_eq (b : BitVec 1) :
    (if b = 1 then half else Ideal.ofBits .f32 0x00000000#32) = ((((b.toNat : ℝ) * (1 / 2) : ℝ)) : EReal) := by
  rcases bit_eq_zero_or_one b with hb | hb
  · subst hb
    rw [if_neg (by decide), Ideal.ofBits_zero_f32]
    simp
  · subst hb
    rw [if_pos (by decide), half_eq]
    simp

/-- For an array of real numbers the two programs compute one function, whatever the mask. With `f` the real
    entries of `x` and `b k` the mask's bit as a number, the kernel's entry is the sum of the reals
    `f k * b k * (1 / 2)`, the reference's is the real `(∑ k, f k * b k) * (1 / 2)`, and these are equal because
    multiplication distributes over a finite sum. -/
theorem kernelOut_eq_refOut (x : SX.Idx → EReal) (hx : ∀ i, ∃ r : ℝ, x i = (r : EReal)) (D : SW.Idx → BitVec 1) :
    kernelOut x D = refOut x D := by
  choose f hf using hx
  funext i
  have hL : ∀ k : Fin 512,
      x (ix2 (i 0) k) * (if D (ix2 k (i 1)) = 1 then half else Ideal.ofBits .f32 0x00000000#32)
        = ((f (ix2 (i 0) k) * ((D (ix2 k (i 1))).toNat : ℝ) * (1 / 2) : ℝ) : EReal) := by
    intro k
    rw [hf, scaled_weight_eq, ← EReal.coe_mul, mul_assoc]
  have hR : ∀ k : Fin 512,
      x (ix2 (i 0) k) * (((D (ix2 k (i 1))).toNat : ℝ) : EReal)
        = ((f (ix2 (i 0) k) * ((D (ix2 k (i 1))).toNat : ℝ) : ℝ) : EReal) := by
    intro k
    rw [hf, ← EReal.coe_mul]
  show (∑ k : Fin 512, x (ix2 (i 0) k) * (if D (ix2 k (i 1)) = 1 then half else Ideal.ofBits .f32 0x00000000#32))
      = (∑ k : Fin 512, x (ix2 (i 0) k) * (((D (ix2 k (i 1))).toNat : ℝ) : EReal)) * half
  rw [Finset.sum_congr rfl (fun k _ => hL k), Finset.sum_congr rfl (fun k _ => hR k), sum_coe_eq_coe_sum,
    sum_coe_eq_coe_sum, half_eq, ← EReal.coe_mul, Finset.sum_mul]

end Cert.Pool

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KValue.lean ====
/-
  What the kernel's result array holds after its run at the extended reals, as one function of its argument array.

  At grid point `t` the body multiplies rows [4096 t, 4096 t + 2048) and rows [4096 t + 2048, 4096 t + 4096) of `x` by
  the [512, 128] weight matrix (one half on the mask, the zero word off it) and stores the two products into the two
  halves of the result's block `t`; the four blocks tile the result. So the result is `Cert.Pool.kernelOut x mask`.
-/
import proofs.«147039_g2000704219197385_pallasbulk_233_9_alg».proof.Proof.KernelIdealFrame
import proofs.«147039_g2000704219197385_pallasbulk_233_9_alg».proof.Proof.PoolSpec
import proofs.«147039_g2000704219197385_pallasbulk_233_9_alg».proof.Proof.LibRowwise
import Idealize.ShloMosaic.Lib.Pipeline.Value
import Idealize.ShloMosaic.Lib.StableHlo.Run
import Idealize.ShloMosaic.Lib.ValueLayout

noncomputable section

namespace Cert.KernelIdeal.KValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-- The membership mask as the kernel's host operations compute it: no input enters it. -/
def mask : Cert.Pool.SW.Idx → BitVec 1 :=
  cmpi .eq (broadcastInDim S512x128 ![0, 1] bcast_S512x1_S512x128_0_1 (select (andi (cmpi .ne (signi (broadcastInDim S512x1 ![0] bcast_S512_S512x1_0 (iotaInDim S512 32 0))) (broadcastInDim S512x1 ![] bcast_S_S512x1 (signi (id (constantI S_ 32 4#32))))) (cmpi .ne (Host.remsi (broadcastInDim S512x1 ![0] bcast_S512_S512x1_0 (iotaInDim S512 32 0)) (broadcastInDim S512x1 ![] bcast_S_S512x1 (id (constantI S_ 32 4#32)))) (broadcastInDim S512x1 ![] bcast_S_S512x1 (constantI S_ 32 0#32)))) (subi (Host.divsi (broadcastInDim S512x1 ![0] bcast_S512_S512x1_0 (iotaInDim S512 32 0)) (broadcastInDim S512x1 ![] bcast_S_S512x1 (id (constantI S_ 32 4#32)))) (broadcastInDim S512x1 ![] bcast_S_S512x1 (constantI S_ 32 1#32))) (Host.divsi (broadcastInDim S512x1 ![0] bcast_S512_S512x1_0 (iotaInDim S512 32 0)) (broadcastInDim S512x1 ![] bcast_S_S512x1 (id (constantI S_ 32 4#32)))))) (broadcastInDim S512x128 ![0, 1] bcast_S1x128_S512x128_0_1 (broadcastInDim S1x128 ![1] bcast_S128_S1x128_1 (iotaInDim S128 32 0)))

variable (m : (ℓ : Loc nD τ sig) → Buf (Elt Ideal) ℓ) (ρ : Dev nD → PrngReg)

set_option maxHeartbeats 8000000 in
/-- The weight array as the region finds it: the host's select between the two constant words on the mask, narrowed
    (the narrowing is the identity at the extended reals). -/
theorem V_main_v9 (c : Dev nD) : (V m c main_v9 : S512x128.Idx → EReal)
    = truncf (F := Ideal) .bf16 (select mask (broadcastInDim S512x128 ![] bcast_S_S512x128 (constant (F := Ideal) S_ .f32 0x3F000000#32))
        (broadcastInDim S512x128 ![] bcast_S_S512x128 (constant (F := Ideal) S_ .f32 0x00000000#32))) bitsLt_bf16_f32 := by
  dsimp only [Hand.V]
  simp only [hostOps0, hostOps0_1, hostOps0_2, hostOps0_3, hostOps0_4, List.flatten_cons, List.flatten_nil, List.append_nil, List.cons_append, List.nil_append]
  after_results
  rfl

/-- The weight array is one half on the mask and the zero word off it. -/
theorem weights (c : Dev nD) : (V m c main_v9 : S512x128.Idx → EReal) = Cert.Pool.wScaled mask := by
  rw [V_main_v9]
  funext j
  rfl

/-! ## The body's two products at an index -/

/-- The kernel's dimension record is the plain product's: it contracts the left operand's columns with the right
    operand's rows and has no batch axis. -/
theorem dot_eq_plain : dot_S2048x512_S512x128_S2048x128_1_0_0_1_n_n = DotDims.plain 2048 512 128 :=
  Cert.Lib.Rowwise.eq_plain _ rfl rfl rfl rfl rfl rfl

/-- The first product at `(p, q)`: row `p` of the block against column `q` of the weights. The narrowing of the block
    and the cast of the weights to their own shape are identities at the extended reals. -/
theorem pay2_apply (w : Vec Ideal S512x128 .bf16) (x : Vec Ideal S2048x512 .f32) (p : Fin 2048) (q : Fin 128) :
    k0_pay2 w x (ix2 p q) = ∑ k : Fin 512, x (ix2 p k) * w (ix2 k q) := by
  unfold Gen.k0_pay2 Gen.k0_pay1
  dsimp only
  rw [dot_eq_plain, shapeCast_self]
  exact Cert.Lib.Rowwise.plain_matmul_zero_apply none (truncf .bf16 x bitsLt_bf16_f32) w p q

/-- The second product at `(p, q)`: the same, of the second block. -/
theorem pay3_apply (w : Vec Ideal S512x128 .bf16) (x : Vec Ideal S2048x512 .f32) (p : Fin 2048) (q : Fin 128) :
    k0_pay3 w x (ix2 p q) = ∑ k : Fin 512, x (ix2 p k) * w (ix2 k q) := by
  unfold Gen.k0_pay3 Gen.k0_pay1
  dsimp only
  rw [dot_eq_plain, shapeCast_self]
  exact Cert.Lib.Rowwise.plain_matmul_zero_apply none (truncf .bf16 x bitsLt_bf16_f32) w p q

/-! ## The result's staging buffer after the body -/

/-- The offsets of an access to a whole buffer are zero on both axes. -/
theorem hz : (![0, 0] : Fin 2 → Nat) = fun _ => 0 := funext fun a => by fin_cases a <;> rfl

/-- If the two input blocks are rows `[r, r + 2048)` and `[r + 2048, r + 4096)` of an array `X`, the staging buffer
    after the body holds, at `(y₀, y₁)`, row `r + y₀` of `X` against column `y₁` of the weights: each of the two
    stores is that function on its half, and the halves cover the buffer. -/
theorem out_apply (X : Cert.Pool.SX.Idx → EReal) (x0 x1 : Vec Ideal S2048x512 .f32) (x2 : Vec Ideal S512x128 .bf16)
    (r : Nat) (hr : r + 4096 ≤ 16384)
    (h0 : ∀ (p : Fin 2048) (k : Fin 512), x0 (ix2 p k) = X (ix2 ⟨r + p.val, by omega⟩ k))
    (h1 : ∀ (p : Fin 2048) (k : Fin 512), x1 (ix2 p k) = X (ix2 ⟨r + 2048 + p.val, by omega⟩ k))
    (y : S4096x128.Idx) :
    out0_3 x0 x1 x2 y = ∑ k : Fin 512, X (ix2 ⟨r + (y 0).val, by have := idx2_lt0 y; omega⟩ k) * x2 (ix2 k (y 1)) := by
  unfold Hand.out0_3
  refine View.canon_apply_of_pieces (Val := Elt Ideal) (S := S4096x128) (e := .f32)
    (fun y : S4096x128.Idx => (∑ k : Fin 512, X (ix2 ⟨r + (y 0).val, by have := idx2_lt0 y; omega⟩ k) * x2 (ix2 k (y 1)) : EReal)) _ ?_ y
    (cover0_3 _ _ y)
  intro pc hpc x
  simp only [List.mem_cons, List.not_mem_nil, or_false] at hpc
  rcases hpc with rfl | rfl
  · obtain ⟨p, q, rfl⟩ : ∃ (p : Fin 2048) (q : Fin 128), x = ix2 p q := ⟨x 0, x 1, eq_ix2 x⟩
    show k0_pay3 (View.ld x2 rP) (View.ld x1 rX) (ix2 p q) = _
    rw [View.ld_unit_zero (S := S512x128) hz, View.ld_unit_zero (S := S2048x512) hz, pay3_apply]
    refine Finset.sum_congr rfl fun k _ => ?_
    rw [h1]
    refine congrArg₂ (· * ·) (congrArg X (Shape.idx_ext₂ ?_ rfl)) (congrArg x2 (Shape.idx_ext₂ rfl ?_))
    · show r + 2048 + p.val = r + (2048 + 1 * p.val); omega
    · show q.val = 0 + 1 * q.val; omega
  · obtain ⟨p, q, rfl⟩ : ∃ (p : Fin 2048) (q : Fin 128), x = ix2 p q := ⟨x 0, x 1, eq_ix2 x⟩
    show k0_pay2 (View.ld x2 rP) (View.ld x0 rX) (ix2 p q) = _
    rw [View.ld_unit_zero (S := S512x128) hz, View.ld_unit_zero (S := S2048x512) hz, pay2_apply]
    refine Finset.sum_congr rfl fun k _ => ?_
    rw [h0]
    refine congrArg₂ (· * ·) (congrArg X (Shape.idx_ext₂ ?_ rfl)) (congrArg x2 (Shape.idx_ext₂ rfl ?_))
    · show r + p.val = r + (0 + 1 * p.val); omega
    · show q.val = 0 + 1 * q.val; omega

/-! ## The windows' blocks as rows of the arrays -/

/-- The printed index maps, decided over the four grid points: at point `t` window 0 is on block `2 t` of 2048 rows,
    window 1 on block `2 t + 1`, window 2 on the one block of the weights, window 3 on block `t` of 4096 rows. -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point is below four. -/
theorem t_lt (t : Fin cfg0.N) : t.val < 4 := lt_of_lt_of_eq t.isLt N_0

/-- Window 0's block at point `t` is rows `[4096 t, 4096 t + 2048)` of the argument array. -/
theorem iblk0_apply (c : Dev nD) (t : Fin cfg0.N) (p : Fin 2048) (k : Fin 512) :
    (iblk m c 0 t : Vec Ideal S2048x512 .f32) (ix2 p k)
      = (V m c main_arg0 : Cert.Pool.SX.Idx → EReal) (ix2 ⟨4096 * t.val + p.val, by have := t_lt t; omega⟩ k) := by
  obtain ⟨e0, e1, -⟩ := idx_facts t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 2048 + 1 * p.val = 4096 * t.val + p.val; omega
  | ⟨1, _⟩ => show win0_0.index t (1 : Fin 2) * 512 + 1 * k.val = k.val; omega

/-- Window 1's block at point `t` is rows `[4096 t + 2048, 4096 t + 4096)` of the same array. -/
theorem iblk1_apply (c : Dev nD) (t : Fin cfg0.N) (p : Fin 2048) (k : Fin 512) :
    (iblk m c 1 t : Vec Ideal S2048x512 .f32) (ix2 p k)
      = (V m c main_arg0 : Cert.Pool.SX.Idx → EReal) (ix2 ⟨4096 * t.val + 2048 + p.val, by have := t_lt t; omega⟩ k) := by
  obtain ⟨-, -, e0, e1, -⟩ := idx_facts t
  show V m c main_arg0 (((cfg0.win 1).blk t).view.emb (ix2 p k)) = V m c main_arg0 _
  refine congrArg (V m c main_arg0) (funext fun a => Fin.ext ?_)
  match a with
  | ⟨0, _⟩ => show win0_1.index t (0 : Fin 2) * 2048 + 1 * p.val = 4096 * t.val + 2048 + p.val; omega
  | ⟨1, _⟩ => show win0_1.index t (1 : Fin 2) * 512 + 1 * k.val = k.val; omega

/-- Window 2's block at any point is the whole weight array. -/
theorem iblk2_eq (c : Dev nD) (t : Fin cfg0.N) :
    (iblk m c 2 t : Vec Ideal S512x128 .bf16) = (V m c main_v9 : S512x128.Idx → EReal) := by
  obtain ⟨-, -, -, -, e0, e1, -⟩ := idx_facts t
  funext j
  show V m c main_v9 (((cfg0.win 2).blk t).view.emb j) = V m c main_v9 j
  refine congrArg (V m c main_v9) (funext fun a => Fin.ext ?_)
  match a with
  | ⟨0, _⟩ => show win0_2.index t (0 : Fin 2) * 512 + 1 * (j 0).val = (j 0).val; omega
  | ⟨1, _⟩ => show win0_2.index t (1 : Fin 2) * 128 + 1 * (j 1).val = (j 1).val; omega

/-! ## From blocks to the array -/

/-- WHAT POINT `t` WRITES BACK is block `t` of the row-by-row product of the argument array with the scaled weights. -/
theorem flushed_eq (c : Dev nD) (t : Fin cfg0.N) :
    (dats m 0 c).flushed 3 t
      = ((cfg0.win 3).blk t).view.read (Elt Ideal) (Cert.Pool.kernelOut (V m c main_arg0) mask) := by
  show (cfg0.win 3).cut (grid0.coords t) ((dats m 0 c).after 3 t) = _
  rw [after0_3]
  obtain ⟨-, -, -, -, -, -, e0, e1⟩ := idx_facts t
  have ht := t_lt t
  funext y
  refine (out_apply (V m c main_arg0) (iblk m c 0 t) (iblk m c 1 t) (iblk m c 2 t) (4096 * t.val) (by omega)
    (iblk0_apply m c t) (iblk1_apply m c t) y).trans ?_
  rw [iblk2_eq, weights]
  show _ = Cert.Pool.rowDot (V m c main_arg0) (Cert.Pool.wScaled mask) (((cfg0.win 3).blk t).view.emb y)
  unfold Cert.Pool.rowDot
  refine Finset.sum_congr rfl fun k _ => ?_
  refine congrArg₂ (· * ·) (congrArg (V m c main_arg0) (Shape.idx_ext₂ ?_ rfl)) (congrArg (Cert.Pool.wScaled mask) (Shape.idx_ext₂ rfl ?_))
  · show 4096 * t.val + (y 0).val = win0_3.index t (0 : Fin 2) * 4096 + 1 * (y 0).val; omega
  · show (y 1).val = win0_3.index t (1 : Fin 2) * 128 + 1 * (y 1).val; omega

/-- An index of the result array is in point `t`'s block iff each coordinate is in the block's range on its axis. -/
theorem mem_blk (t : Fin cfg0.N) (i : S16384x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v10).slice (win0_3.rect t)).set ↔ _
  rw [View.set_slice_whole, Rect.mem_set_unit]
  exact Iff.rfl

/-- The four blocks tile the result array: row `r` lies in the block of point `r / 4096`, which writes back. -/
theorem cover (i : S16384x128.Idx) :
    ∃ t : Fin cfg0.N, (cfg0.win 3).flush t = true ∧ i ∈ ((cfg0.win 3).blk t).view.set := by
  have hi0 : (i 0).val < 16384 := idx2_lt0 i
  have hi1 : (i 1).val < 128 := idx2_lt1 i
  obtain ⟨t, ht⟩ : ∃ t : Fin cfg0.N, t.val = (i 0).val / 4096 :=
    ⟨⟨(i 0).val / 4096, by rw [show cfg0.N = 4 from N_0]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 128 ≤ (i 1).val ∧ (i 1).val < win0_3.index t (1 : Fin 2) * 128 + 128
    omega

/-- THE RESULT ARRAY after the run: the row-by-row product of the argument array, as the region finds it, with the
    scaled weights. -/
theorem final (c : Dev nD) : (dats m 0 c).arrAt 3 cfg0.N = Cert.Pool.kernelOut (V m c main_arg0) mask :=
  (dats m 0 c).arrAt_eq_of_cover 3 _ (fun t _ => flushed_eq m c t) cover

/-- After the kernel's run its result array is `Cert.Pool.kernelOut` of the argument array and the mask, and the
    argument array is as launched. -/
theorem run : θ_run defs (onTc (τ := τ) (main (F := Ideal))) ⟨m, fun _ => 0, ρ⟩ fun r => ∀ c : Dev nD,
      r.2.mem ((c : Thread nD τ).loc main_v10) = Cert.Pool.kernelOut (m ((c : Thread nD τ).loc main_arg0)) mask
      ∧ r.2.mem ((c : Thread nD τ).loc main_arg0) = m ((c : Thread nD τ).loc main_arg0) :=
  (θ_run defs _ _).mono (fun r h c => ⟨((h c).1 3).trans (by rw [final, V_main_arg0]),
      ((h c).1 0).trans (((dats m 0 c).arrAt_in 0 rfl _).trans ((A_eq m c 0).trans (V_main_arg0 m c)))⟩)
    (run_main m ρ)

end Cert.KernelIdeal.KValue

end
-- ==== Proof.RefValue.lean ====
/-
  What the reference's result array holds after its run, as one function of its argument array.

  The reference multiplies each block of 2048 rows of `x` by the [512, 128] matrix of the mask's bits and halves the
  product; its eight blocks tile the result. So the result is `Cert.Pool.refOut x mask`, row by row.
-/
import proofs.«147039_g2000704219197385_pallasbulk_233_9_alg».proof.Proof.Gen.ReferenceIdeal.Value
import proofs.«147039_g2000704219197385_pallasbulk_233_9_alg».proof.Proof.PoolSpec
import proofs.«147039_g2000704219197385_pallasbulk_233_9_alg».proof.Proof.LibRowwise
import Idealize.ShloMosaic.Lib.StableHlo.Run
import Idealize.ShloMosaic.Lib.StableHlo.Predicate
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem
open Idealize.ShloMosaic.Pipeline (Dat)
open Idealize.ShloMosaic.ValueIdx
open Idealize.ShloMosaic.StableHlo.Predicate (ij ixP ij_eta bcast_of_col bcast_col1 bcast_scalar iota_apply slt_iff_toNat)

/-- The membership mask as the reference's host operations compute it: no input enters it. -/
def mask : Cert.Pool.SW.Idx → BitVec 1 :=
  cmpi .eq (broadcastInDim S512x128 ![0, 1] bcast_S512x1_S512x128_0_1 (select (andi (cmpi .ne (signi (broadcastInDim S512x1 ![0] bcast_S512_S512x1_0 (iotaInDim S512 32 0))) (broadcastInDim S512x1 ![] bcast_S_S512x1 (signi (id (constantI S_ 32 4#32))))) (cmpi .ne (Host.remsi (broadcastInDim S512x1 ![0] bcast_S512_S512x1_0 (iotaInDim S512 32 0)) (broadcastInDim S512x1 ![] bcast_S_S512x1 (id (constantI S_ 32 4#32)))) (broadcastInDim S512x1 ![] bcast_S_S512x1 (constantI S_ 32 0#32)))) (subi (Host.divsi (broadcastInDim S512x1 ![0] bcast_S512_S512x1_0 (iotaInDim S512 32 0)) (broadcastInDim S512x1 ![] bcast_S_S512x1 (id (constantI S_ 32 4#32)))) (broadcastInDim S512x1 ![] bcast_S_S512x1 (constantI S_ 32 1#32))) (Host.divsi (broadcastInDim S512x1 ![0] bcast_S512_S512x1_0 (iotaInDim S512 32 0)) (broadcastInDim S512x1 ![] bcast_S_S512x1 (id (constantI S_ 32 4#32)))))) (broadcastInDim S512x128 ![0, 1] bcast_S1x128_S512x128_0_1 (broadcastInDim S1x128 ![1] bcast_S128_S1x128_1 (iotaInDim S128 32 0)))

variable (m : (ℓ : Loc nD τ sig) → Buf (Elt Ideal) ℓ) (ρ : Dev nD → PrngReg)

/-! ## The weights: the mask's bits read as numbers -/

/-- The test "row number below 512", laid along the rows: the second operand of the "and" that makes the weights. -/
def rowsBelow : S512x128.Idx → BitVec 1 :=
  broadcastInDim S512x128 ![0, 1] bcast_S512x1_S512x128_0_1
    (cmpi .slt (broadcastInDim S512x1 ![0] bcast_S512_S512x1_0 (iotaInDim S512 32 0))
      (broadcastInDim S512x1 ![] bcast_S_S512x1 (constantI S_ 32 512#32)))

/-- At row `p` the test compares the word of `p` with the word of 512 as signed numbers; both are small and
    non-negative, so they compare as their values, and `p` is below 512. -/
theorem rowsBelow_ij (p : Fin 512) (q : Fin 128) : rowsBelow (ij p q) = 1#1 := by
  unfold rowsBelow
  rw [bcast_of_col]
  show IntOp.cmpi .slt (broadcastInDim S512x1 ![0] bcast_S512_S512x1_0 (iotaInDim S512 32 0) (ixP p))
      (broadcastInDim S512x1 ![] bcast_S_S512x1 (constantI S_ 32 512#32) (ixP p)) = 1#1
  rw [bcast_col1, bcast_scalar _ (by decide), iota_apply]
  have hp : p.val < 512 := p.isLt
  refine (slt_iff_toNat ?_ ?_).mpr ?_
  · rw [BitVec.toNat_ofNat]; omega
  · decide
  · rw [BitVec.toNat_ofNat]; show p.val % 2 ^ 32 < 512; omega

/-- Every row number of a 512-row array is below 512: the test is set everywhere. -/
theorem rowsBelow_apply (j : S512x128.Idx) : rowsBelow j = 1#1 := by
  obtain ⟨p, q, rfl⟩ : ∃ (p : Fin 512) (q : Fin 128), j = ij p q := ⟨j 0, j 1, (ij_eta j).symm⟩
  exact rowsBelow_ij p q

/-- "And" with a set bit changes nothing. -/
theorem andi_one (b : BitVec 1) : IntOp.andi b 1#1 = b := by
  rcases BitVec.eq_zero_or_eq_one b with rfl | rfl <;> rfl

set_option maxHeartbeats 8000000 in
/-- The weight array the region finds, as the host operations before it leave it: the mask, "and"-ed with the test on
    the row numbers, each bit then read as a number. Each host operation writes one array from the arrays written
    before it, so the array is the operations' composed term. -/
theorem weights_term (c : Dev nD) :
    (V m c main_v12 : S512x128.Idx → EReal) = uitofp (F := Ideal) .f32 (andi mask rowsBelow) := by
  dsimp only [Gen.V]
  simp only [hostOps0, hostOps0_1, hostOps0_2, List.flatten_cons, List.flatten_nil, List.append_nil, List.cons_append,
    List.nil_append]
  after_results
  rfl

/-- The weight array the region finds is the mask's bits read as numbers: the second operand of the "and" is set
    everywhere, and at the extended reals an unsigned word converts to its value. -/
theorem weights (c : Dev nD) : (V m c main_v12 : S512x128.Idx → EReal) = Cert.Pool.wPlain mask := by
  rw [weights_term]
  funext j
  show (((IntOp.andi (mask j) (rowsBelow j)).toNat : ℝ) : EReal) = (((mask j).toNat : ℝ) : EReal)
  rw [rowsBelow_apply, andi_one]

/-! ## The body's arithmetic at an index -/

theorem hz : (![0, 0] : Fin 2 → Nat) = fun _ => 0 := funext fun a => by fin_cases a <;> rfl

/-- The printed dimension numbers contract the block's axis 1 with the weights' axis 0 and have no batch axes: they are
    the plain product's. -/
theorem dot_plain : dot_S2048x512_S512x128_S2048x128_1_0_0_1_n_n = DotDims.plain 2048 512 128 :=
  Cert.Lib.Rowwise.eq_plain _ rfl rfl rfl rfl rfl rfl

/-- The body's result at row `p`, column `q`: row `p` of the block against column `q` of the weights, summed from
    the zero word, then multiplied by the word of one half. -/
theorem payload_apply (x : Vec Ideal S2048x512 .f32) (w : Vec Ideal S512x128 .f32) (p : Fin 2048) (q : Fin 128) :
    k0_pay1 (F := Ideal) x w (ix2 p q) = (∑ k : Fin 512, x (ix2 p k) * w (ix2 k q)) * Cert.Pool.half := by
  unfold Gen.k0_pay1
  rw [mulf_apply, broadcast_apply, shapeCast_self, dot_plain]
  exact congrArg (· * Cert.Pool.half)
    (Cert.Lib.Rowwise.plain_matmul_zero_apply (φ₁ := .f32) (φ₂ := .f32) (some .fp32) x w p q)

/-! ## The windows' blocks as parts of their arrays -/

/-- The printed index maps over the grid: the input block moves with the output block along the rows, point `t` is at
    block row `t`, and every other block coordinate is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The input window's block at point `t`, at a local index, is the argument array at the index its rectangle names: a
    block's coordinate on an axis is the block index times the block's extent plus the coordinate inside the block. -/
theorem block0_apply (c : Dev nD) (t : Fin cfg0.N) (y : S2048x512.Idx) (k : S16384x512.Idx)
    (hk0 : (k 0).val = win0_0.index t 0 * 2048 + (y 0).val) (hk1 : (k 1).val = win0_0.index t 1 * 512 + (y 1).val) :
    (iblk m c 0 t : Vec Ideal S2048x512 .f32) y = (V m c main_arg0 : S16384x512.Idx → EReal) k := by
  unfold Gen.iblk
  rw [View.read_apply]
  show V m c main_arg0 _ = V m c main_arg0 k
  congr 1
  funext a
  apply Fin.ext
  match a with
  | ⟨0, _⟩ => show win0_0.index t 0 * 2048 + 1 * (y 0).val = (k 0).val; omega
  | ⟨1, _⟩ => show win0_0.index t 1 * 512 + 1 * (y 1).val = (k 1).val; omega

/-- The weight window's block at any point is the whole weight array: its block index is zero on both axes. -/
theorem block1_apply (c : Dev nD) (t : Fin cfg0.N) (y : S512x128.Idx) :
    (iblk m c 1 t : Vec Ideal S512x128 .f32) y = (V m c main_v12 : S512x128.Idx → EReal) y := by
  obtain ⟨-, -, e2, e3, -, -⟩ := idx_facts t
  unfold Gen.iblk
  rw [View.read_apply]
  show V m c main_v12 _ = V m c main_v12 y
  congr 1
  funext a
  apply Fin.ext
  match a with
  | ⟨0, _⟩ => show win0_1.index t 0 * 512 + 1 * (y 0).val = (y 0).val; omega
  | ⟨1, _⟩ => show win0_1.index t 1 * 128 + 1 * (y 1).val = (y 1).val; omega

/-! ## From the blocks to the array -/

/-- The body's result at a local index of point `t`'s block is the result function at the array index the output
    window's rectangle names: the rows of the input block are the rows of the argument at the same block row, and the
    weights are the mask's bits. -/
theorem out_apply (c : Dev nD) (t : Fin cfg0.N) (p : Fin 2048) (q : Fin 128) (i : S16384x128.Idx)
    (hi0 : (i 0).val = win0_2.index t 0 * 2048 + p.val) (hi1 : (i 1).val = q.val) :
    k0_pay1 (F := Ideal) (iblk m c 0 t) (iblk m c 1 t) (ix2 p q)
      = Cert.Pool.refOut (V m c main_arg0 : S16384x512.Idx → EReal) mask i := by
  obtain ⟨e0, e1, -, -, -, -⟩ := idx_facts t
  rw [payload_apply]
  show _ = Cert.Pool.rowDot _ (Cert.Pool.wPlain mask) i * Cert.Pool.half
  unfold Cert.Pool.rowDot
  have hq : i 1 = q := Fin.ext hi1
  rw [hq]
  refine congrArg (fun s : EReal => s * Cert.Pool.half) (Finset.sum_congr rfl fun k _ => ?_)
  rw [block1_apply, weights,
    block0_apply m c t (ix2 p k) (ix2 (i 0) k) (by show (i 0).val = win0_0.index t 0 * 2048 + p.val; omega)
      (by show k.val = win0_0.index t 1 * 512 + k.val; omega)]

/-- What point `t` writes back is block `t` of the result function of the argument array: the body's one store covers
    its buffer, and its loads read the whole input blocks. -/
theorem flushed_eq (c : Dev nD) (t : Fin cfg0.N) :
    (dats m 0 c).flushed 2 t
      = ((cfg0.win 2).blk t).view.read (Elt Ideal) (Cert.Pool.refOut (V m c main_arg0 : S16384x512.Idx → EReal) mask) := by
  rw [Value.flushed2]
  unfold Gen.out0_2
  rw [View.canon_unit_zero hz]
  simp only [View.ld_unit_zero (S := S2048x512) hz, View.ld_unit_zero (S := S512x128) hz]
  obtain ⟨-, -, -, -, -, e5⟩ := idx_facts t
  funext j
  have hj : (j : S2048x128.Idx) = ix2 (j 0) (j 1) := eq_ix2 (j : S2048x128.Idx)
  show k0_pay1 (F := Ideal) (iblk m c 0 t) (iblk m c 1 t) (j : S2048x128.Idx)
      = Cert.Pool.refOut (V m c main_arg0 : S16384x512.Idx → EReal) mask (((cfg0.win 2).blk t).view.emb j)
  rw [hj]
  refine out_apply m c t _ _ _ ?_ ?_
  · show win0_2.index t 0 * 2048 + 1 * (j 0).val = win0_2.index t 0 * 2048 + (j 0).val; omega
  · show win0_2.index t 1 * 128 + 1 * (j 1).val = (j 1).val; omega

/-- An index of the result array is in point `t`'s block when each coordinate is in the block's range on its axis. -/
theorem mem_blk (t : Fin cfg0.N) (i : S16384x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v13).slice (win0_2.rect t)).set ↔ _
  rw [View.set_slice_whole, Rect.mem_set_unit]
  exact Iff.rfl

/-- The eight blocks tile the result array: row `r` is in the block of point `r / 2048`. -/
theorem cover (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t 0 * 2048 ≤ (i 0).val ∧ (i 0).val < win0_2.index t 0 * 2048 + 2048
    omega
  | ⟨1, _⟩ =>
    show win0_2.index t 1 * 128 ≤ (i 1).val ∧ (i 1).val < win0_2.index t 1 * 128 + 128
    omega

/-- So after the run the result array is the result function of the argument array as the region finds it. -/
theorem final (c : Dev nD) :
    (dats m 0 c).arrAt 2 cfg0.N = Cert.Pool.refOut (V m c main_arg0 : S16384x512.Idx → EReal) mask :=
  (dats m 0 c).arrAt_eq_of_cover 2 _ (fun t _ => flushed_eq m c t) cover

/-- After the reference's run its result array is `Cert.Pool.refOut` of the argument array and the mask, and the
    argument array is as launched. -/
theorem run : θ_run defs (onTc (τ := τ) (main (F := Ideal))) ⟨m, fun _ => 0, ρ⟩ fun r => ∀ c : Dev nD,
      r.2.mem ((c : Thread nD τ).loc main_v13) = Cert.Pool.refOut (m ((c : Thread nD τ).loc main_arg0)) mask
      ∧ r.2.mem ((c : Thread nD τ).loc main_arg0) = m ((c : Thread nD τ).loc main_arg0) :=
  (θ_run defs _ _).mono (fun r h c => ⟨(h c).1.trans (by rw [final, V_main_arg0]), (h c).2⟩) (Value.run_blocks m ρ)

end Cert.ReferenceIdeal.RefValue

end
-- ==== Proof.PoolFinite.lean ====
/-
  From the precondition to real numbers: when the printed test "every entry of the array is below +inf in absolute
  value" is all ones, every entry of the array, an extended real, is a real number.
-/
import proofs.«147039_g2000704219197385_pallasbulk_233_9_alg».proof.Pre_finite_inputs
import Idealize.ShloMosaic.PureOps.Ideal.Laws
import Idealize.ShloMosaic.Lib.ReduceAll
import Idealize.ShloMosaic.Lib.ValueIdx

noncomputable section

namespace Cert.Pool

open Idealize.ShloMosaic

/-- The word the test compares against, sign 0 with an all-ones exponent field and a zero fraction, denotes `+∞`. -/
private theorem ofBits_inf_f32 : Ideal.ofBits .f32 0x7F800000#32 = ⊤ := by
  simp [Ideal.ofBits, Ideal.ieee]

/-- An extended real whose absolute value `max a (-a)` is below `+∞` is a real number: at `⊥` the negation is `⊤`,
    at `⊤` the value itself is, and neither is below `⊤`. -/
private theorem real_of_abs_lt_top (a : EReal) (h : max a (-a) < ⊤) : ∃ r : ℝ, a = (r : EReal) := by
  induction a using EReal.rec with
  | bot => simp at h
  | coe r => exact ⟨r, rfl⟩
  | top => simp at h

/-- If the finiteness test of the array `x` evaluates to the all-ones word, each entry of `x` is a real number.
    The test is a conjunction over every index of the bit "`|x i|` is below the `+∞` word"; a conjunction of one-bit
    words that is one had a one at every index, and the bit at `i` being one says `max (x i) (-(x i)) < ⊤`. -/
theorem real_of_finite_inputs [Cert.Pre_finite_inputs.Facts] (x : FVec Ideal Cert.Pre_finite_inputs.S16384x512 .f32)
    (h : Cert.Pre_finite_inputs.fn (F := Ideal) x = fun _ => 1#1) : ∀ i, ∃ r : ℝ, x i = (r : EReal) := by
  intro i
  -- the result has rank 0, hence one index
  haveI : Subsingleton Cert.Pre_finite_inputs.S_.Idx := ⟨fun a b => funext fun d => d.elim0⟩
  have h0 := congrFun h ValueIdx.ix0
  dsimp only [Cert.Pre_finite_inputs.fn] at h0
  -- the compare bit at `i` is one
  have hi := Host.reduce_andi_all _ _ _ _ _ h0 i
  have hc : Ideal.cmp .olt (max (x i) (-(x i))) (Ideal.ofBits .f32 0x7F800000#32) = 1#1 := hi
  rw [ofBits_inf_f32] at hc
  have hb : BitVec.ofBool (decide (max (x i) (-(x i)) < ⊤)) = 1#1 := hc
  have hlt : max (x i) (-(x i)) < ⊤ := by
    by_contra hn
    rw [decide_eq_false hn] at hb
    exact absurd hb (by decide)
  exact real_of_abs_lt_top (x i) hlt

end Cert.Pool

end
-- ==== Proof.lean ====
/-
  The certificate of the pooling kernel against its reference: the three frames, `preserves` and `algebraic`.

  Both programs pool the 512 columns of `x : f32[16384, 512]` into 128 groups of four adjacent columns and scale by one
  half. The kernel multiplies each row by a [512, 128] matrix holding one half where column `k` belongs to group `c` and
  zero elsewhere; the reference multiplies by the 0/1 matrix of the same membership mask and halves the product. Over
  the extended reals the two agree on rows of real numbers (one half times a finite sum of reals is the sum of the
  halves), which is what the precondition gives; at an infinite entry the two sides need not agree, so the
  precondition is used.

  * The reference's frame is its generated frame. The kernel's two frames (the word-level program and its idealization
    have one text) are proved by hand in `Proof/KernelIdealFrame.lean` and its namespace copy: the kernel reads its
    argument array through TWO windows, so the array's buffer is dealt to them by halves of its share
    (`Proof/LibSharedFrame.lean`).
  * `preserves`: the ideal pass rewrote nothing, the conjunct is `True`.
  * `algebraic`: the kernel's result array is `Cert.Pool.kernelOut x mask` (`Proof/KValue.lean`), the reference's is
    `Cert.Pool.refOut x mask` (`Proof/RefValue.lean`), the two masks are one term, every entry of `x` is real under the
    precondition (`Proof/PoolFinite.lean`), and then the two functions are equal (`Proof/PoolSpec.lean`).
-/
import proofs.«147039_g2000704219197385_pallasbulk_233_9_alg».proof.Defs
import proofs.«147039_g2000704219197385_pallasbulk_233_9_alg».proof.Proof.Gen.Kernel
import proofs.«147039_g2000704219197385_pallasbulk_233_9_alg».proof.Proof.Gen.KernelIdeal
import proofs.«147039_g2000704219197385_pallasbulk_233_9_alg».proof.Proof.Gen.ReferenceIdeal
import proofs.«147039_g2000704219197385_pallasbulk_233_9_alg».proof.Proof.Gen.ReferenceIdeal.Frame
import proofs.«147039_g2000704219197385_pallasbulk_233_9_alg».proof.Proof.Gen.Pre_finite_inputs
import proofs.«147039_g2000704219197385_pallasbulk_233_9_alg».proof.Proof.KernelFrame
import proofs.«147039_g2000704219197385_pallasbulk_233_9_alg».proof.Proof.KernelIdealFrame
import proofs.«147039_g2000704219197385_pallasbulk_233_9_alg».proof.Proof.KValue
import proofs.«147039_g2000704219197385_pallasbulk_233_9_alg».proof.Proof.RefValue
import proofs.«147039_g2000704219197385_pallasbulk_233_9_alg».proof.Proof.PoolSpec
import proofs.«147039_g2000704219197385_pallasbulk_233_9_alg».proof.Proof.PoolFinite
import Idealize.ShloMosaic.Adequacy
import Idealize.ShloMosaic.Init

noncomputable section

namespace Cert.Proof

open Idealize.ShloMosaic Idealize.ShloMosaic.TcCoe Idealize.SL.Sem

/-- The word-level kernel runs and leaves its argument array as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- And the reference. -/
theorem frame_referenceIdeal : Cert.frame_ReferenceIdeal := fun m ρ _ => Cert.ReferenceIdeal.Gen.frame m ρ

/-- The ideal pass rewrote no operation: nothing to preserve. -/
theorem preserves : Cert.preserves_Kernel_KernelIdeal := trivial

/-- The two programs compute the membership mask by the same host operations: one term. -/
theorem mask_eq : Cert.KernelIdeal.KValue.mask = Cert.ReferenceIdeal.RefValue.mask := rfl

/-- From arguments that agree, the kernel's result is `kernelOut x mask` and the reference's `refOut x mask` of the same
    array of real numbers: one function. -/
theorem algebraic : Cert.algebraic_KernelIdeal_ReferenceIdeal := by
  intro m ρ m' ρ' hpre hagree
  refine ⟨fun c => Cert.Pool.kernelOut (m ((c : Thread Cert.KernelIdeal.nD Cert.KernelIdeal.τ).loc Cert.KernelIdeal.main_arg0)) Cert.KernelIdeal.KValue.mask,
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [hagree c, ← mask_eq]
  exact (Cert.Pool.kernelOut_eq_refOut _ (Cert.Pool.real_of_finite_inputs _ (hpre c)) _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
